-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x2048 : Shape := ⟨3, ![128, 128, 2048]⟩
abbrev S128 : Shape := ⟨1, ![128]⟩
abbrev S_ : Shape := ⟨0, ![]⟩

class Facts : Prop where
  bcast_S_S128x128x2048 : S_.BroadcastsInDim S128x128x2048 (![] : Fin 0 → Fin S128x128x2048.rank)
  reducesTo_S128x128x2048_S_d0_1_2 : S128x128x2048.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x128x2048 .f32) (main_arg1 : FVec F S128 .f32) : IVec S_ 1 :=
  let main_v0 : FVec F S128x128x2048 .f32 := Host.absf main_arg0
  let main_cst : FVec F S_ .f32 := constant S_ .f32 0x7F800000#32
  let main_v1 : FVec F S128x128x2048 .f32 := broadcastInDim S128x128x2048 ![] bcast_S_S128x128x2048 main_cst
  let main_v2 : IVec S128x128x2048 1 := cmpf .olt main_v0 main_v1
  let main_c : IVec S_ 1 := constantI S_ 1 1#1
  let main_v3 : IVec S_ 1 := (fun x v => Host.reduce IntOp.andi x v reducesTo_S128x128x2048_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S128x128x2048 : Shape := ⟨3, ![128, 128, 2048]⟩
abbrev S128 : Shape := ⟨1, ![128]⟩
abbrev S_ : Shape := ⟨0, ![]⟩
abbrev S1x128x1 : Shape := ⟨3, ![1, 128, 1]⟩
abbrev S8x128x2048 : Shape := ⟨3, ![8, 128, 2048]⟩

abbrev nBuf : Space → Nat
  | .hbm => 8
  | .vmem => 5
  | .smem => 0
  | _ => 0

abbrev bufTy : (tb : Table) → Fin (tcTables nBuf tb) → BufTy
  | .hbm, ⟨0, _⟩ => ⟨S128x128x2048, .f32⟩
  | .hbm, ⟨1, _⟩ => ⟨S128, .f32⟩
  | .hbm, ⟨2, _⟩ => ⟨S_, .f32⟩
  | .hbm, ⟨3, _⟩ => ⟨S128, .f32⟩
  | .hbm, ⟨4, _⟩ => ⟨S128, .i1⟩
  | .hbm, ⟨5, _⟩ => ⟨S128, .f32⟩
  | .hbm, ⟨6, _⟩ => ⟨S1x128x1, .f32⟩
  | .hbm, ⟨7, _⟩ => ⟨S128x128x2048, .f32⟩
  | .local _ .vmem, ⟨0, _⟩ => ⟨S8x128x2048, .f32⟩
  | .local _ .vmem, ⟨1, _⟩ => ⟨S8x128x2048, .f32⟩
  | .local _ .vmem, ⟨2, _⟩ => ⟨S1x128x1, .f32⟩
  | .local _ .vmem, ⟨3, _⟩ => ⟨S8x128x2048, .f32⟩
  | .local _ .vmem, ⟨4, _⟩ => ⟨S8x128x2048, .f32⟩
  | _, _ => ⟨S128x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S128 : S_.BroadcastsInDim S128 (![] : Fin 0 → Fin S128.rank)
  shapeCasts_S128_S1x128x1 : S128.ShapeCasts S1x128x1
  inb_S1x128x1_S1x128x1_0_0_0 : ∀ a, (![0, 0, 0] : Fin 3 → Nat) a + S1x128x1.size a ≤ S1x128x1.size a
  h_S1x128x1 : 0 < S1x128x1.numel
  shapeCasts_S1x128x1_S1x128x1 : S1x128x1.ShapeCasts S1x128x1
  broadcasts_S1x128x1_S8x128x2048 : S1x128x1.Broadcasts S8x128x2048
  inb_S8x128x2048_S8x128x2048_0_0_0 : ∀ a, (![0, 0, 0] : Fin 3 → Nat) a + S8x128x2048.size a ≤ S8x128x2048.size a
  h_S8x128x2048 : 0 < S8x128x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x2048.size a ≤ S128x128x2048.size a
  hwx0_0 : ∀ i : grid0.Coords, EltTy.bits .f32 = 32 ∨ (Rect.block (s := S128x128x2048) S8x128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128x1.size a ≤ S1x128x1.size a
  hwx0_1 : ∀ i : grid0.Coords, EltTy.bits .f32 = 32 ∨ (Rect.block (s := S1x128x1) S1x128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x2048.size a ≤ S128x128x2048.size a
  hwx0_2 : ∀ i : grid0.Coords, EltTy.bits .f32 = 32 ∨ (Rect.block (s := S128x128x2048) S8x128x2048.size (cc0_transform_2 i) (hinb0_2 i)).WholeWords (EltTy.packing .f32)

variable [Facts₀]

abbrev win0_0 : Pipeline.Window sig grid0 :=
  Pipeline.Window.ofSpec (Memref.whole main_arg0) S8x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x128x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x128x2048 : Shape := ⟨3, ![128, 128, 2048]⟩
abbrev S128 : Shape := ⟨1, ![128]⟩
abbrev S_ : Shape := ⟨0, ![]⟩
abbrev S1x128x1 : Shape := ⟨3, ![1, 128, 1]⟩

abbrev nBuf : Space → Nat
  | .hbm => 9
  | .vmem => 0
  | .smem => 0
  | _ => 0

abbrev bufTy : (tb : Table) → Fin (tcTables nBuf tb) → BufTy
  | .hbm, ⟨0, _⟩ => ⟨S128x128x2048, .f32⟩
  | .hbm, ⟨1, _⟩ => ⟨S128, .f32⟩
  | .hbm, ⟨2, _⟩ => ⟨S_, .f32⟩
  | .hbm, ⟨3, _⟩ => ⟨S128, .f32⟩
  | .hbm, ⟨4, _⟩ => ⟨S128, .i1⟩
  | .hbm, ⟨5, _⟩ => ⟨S128, .f32⟩
  | .hbm, ⟨6, _⟩ => ⟨S1x128x1, .f32⟩
  | .hbm, ⟨7, _⟩ => ⟨S128x128x2048, .f32⟩
  | .hbm, ⟨8, _⟩ => ⟨S128x128x2048, .f32⟩
  | _, _ => ⟨S128x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S1x128x1_1 : S128.BroadcastsInDim S1x128x1 (![1] : Fin 1 → Fin S1x128x1.rank)
  bcast_S1x128x1_S128x128x2048_0_1_2 : S1x128x1.BroadcastsInDim S128x128x2048 (![0, 1, 2] : Fin 3 → Fin S128x128x2048.rank)

variable [Facts₀]

class Facts : Prop extends Facts₀ where

variable [Facts]
-- ==== Proof.FeatureMask.lean ====
/-
  The mathematics both programs compute, stated once over literal shapes and any float instance.

  A feature `s` of the 128 is KEPT when its draw `r s` is at least the binary word of the literal 0.2, and the keep
  flag is that one-bit comparison widened to a float: `1` when kept, `0` when dropped. Every element `x (b, s, d)` of
  the [128, 128, 2048] array is multiplied by the flag of ITS feature `s`, the middle coordinate: whole [batch, depth]
  slabs are kept or zeroed together. `scaleRows` is that product against a [1, 128, 1] column of flags, whatever the
  column holds; `keepCol` is the column the draws give; `dropped` is the two composed.
-/
import Idealize.ShloMosaic.PureOps.Ideal
import Idealize.ShloMosaic.Lib.ValueIdx

noncomputable section

namespace Cert.FeatureMask

open Idealize.ShloMosaic Idealize.ShloMosaic.ValueIdx

variable {F : FTy → Type} [FloatOps F]

/-- The data array's shape: [batch, feature, depth]. -/
abbrev Arr : Shape := ⟨3, ![128, 128, 2048]⟩
/-- The flags laid out as a column along the feature axis. -/
abbrev Col : Shape := ⟨3, ![1, 128, 1]⟩
/-- The draws, one per feature. -/
abbrev Row : Shape := ⟨1, ![128]⟩

/-- The column index under an array index: its feature coordinate, the two unit axes at `0`. -/
abbrev under (i : Arr.Idx) : Col.Idx := fun a => match a with
  | ⟨0, _⟩ => ⟨0, Nat.one_pos⟩
  | ⟨1, _⟩ => ⟨(i 1).val, (i 1).isLt⟩
  | ⟨2, _⟩ => ⟨0, Nat.one_pos⟩

/-- The draw a column index reads: the one of its feature coordinate. -/
abbrev feature (j : Col.Idx) : Row.Idx := fun a => match a with
  | ⟨0, _⟩ => ⟨(j 1).val, (j 1).isLt⟩

/-- Feature `s`'s keep flag: "the draw is at least 0.2" as a float, `1` or `0`. -/
def keepFlag (r : Row.Idx → Elt F .f32) (s : Row.Idx) : Elt F .f32 :=
  FloatOps.uitofp .f32 (FloatOps.cmpf .oge (r s) (FloatOps.ofBits .f32 0x3E4CCCCD#32))

/-- The flags as a [1, 128, 1] column. -/
def keepCol (r : Row.Idx → Elt F .f32) : Col.Idx → Elt F .f32 := fun j => keepFlag r (feature j)

/-- Each element times the column's entry at its feature. -/
def scaleRows (x : Arr.Idx → Elt F .f32) (k : Col.Idx → Elt F .f32) : Arr.Idx → Elt F .f32 :=
  fun i => FloatOps.mulf (x i) (k (under i))

/-- Per-feature dropout: each element times its feature's keep flag. -/
def dropped (x : Arr.Idx → Elt F .f32) (r : Row.Idx → Elt F .f32) : Arr.Idx → Elt F .f32 :=
  scaleRows x (keepCol r)

end Cert.FeatureMask

end
-- ==== Proof.KeepColumn.lean ====
/-
  What the kernel's second window stages: the [1, 128, 1] column of keep flags.

  Before the region @main compares the draws with the literal 0.2, widens the bits to floats — a [128] vector of
  flags — and reshapes it to [1, 128, 1]. A reshape keeps row-major order, and the row-major position of (0, s, 0) in
  [1, 128, 1] is s, so the column's entry at (0, s, 0) is the flag of feature s: the column is `FeatureMask.keepCol`
  of the draws.
-/
import proofs.«122713_j37254546325874_1_alg».proof.Proof.Gen.KernelIdeal.Frame
import proofs.«122713_j37254546325874_1_alg».proof.Proof.FeatureMask
import Idealize.ShloMosaic.Lib.Pipeline.Value
import Idealize.ShloMosaic.Lib.StableHlo.Run

noncomputable section

namespace Cert.KernelIdeal.Column

open Cert.KernelIdeal Cert.KernelIdeal.Gen Idealize.ShloMosaic Idealize.ShloMosaic.TcCoe Idealize.SL.Sem
open Idealize.ShloMosaic.StableHlo Cert.FeatureMask

variable {F : FTy → Type} [FloatOps F]
variable (m : (ℓ : Loc nD τ sig) → Buf (Elt F) ℓ)

/-- The array the second window stages, as the host operations before the region leave it: the reshape of the
    widened comparison of the draws with the literal. -/
theorem column_term (c : Dev nD) :
    (V m c main_v3 : S1x128x1.Idx → Elt F .f32)
      = shapeCast S1x128x1 (uitofp .f32 (cmpf .oge (m ((c : Thread nD τ).loc main_arg1))
          (broadcastInDim S128 ![] bcast_S_S128 (constant (F := F) S_ .f32 0x3E4CCCCD#32)))) shapeCasts_S128_S1x128x1 := by
  dsimp only [Gen.V, Gen.hostOps0]; after_results; rfl

/-- That array is the column of keep flags: entry (0, s, 0) sits at row-major position s, where the [128] vector
    holds the flag of feature s. -/
theorem column_eq (c : Dev nD) :
    (V m c main_v3 : S1x128x1.Idx → Elt F .f32) = keepCol (F := F) (m ((c : Thread nD τ).loc main_arg1)) := by
  rw [column_term]
  funext j
  refine (shapeCast_apply _ shapeCasts_S128_S1x128x1 j (feature j) ?_).trans ?_
  · rw [Shape.rowMajor_val_one, Shape.rowMajor_val_three]
    have h0 : (j 0).val < 1 := (j 0).isLt
    have h2 : (j 2).val < 1 := (j 2).isLt
    show (j 1).val = ((j 0).val * 128 + (j 1).val) * 1 + (j 2).val
    omega
  · rfl

end Cert.KernelIdeal.Column

end
-- ==== Proof.KernelValue.lean ====
/-
  The kernel's result array is the per-feature dropout `FeatureMask.dropped` of its two arguments.

  The grid has 16 points; point t works on batch rows 8t … 8t+7. Its first window stages that [8, 128, 2048] block of
  the data, its second the whole [1, 128, 1] column of keep flags (the same block at every point), and the body
  writes back the data block times the column broadcast along batch and depth: element (b, s, d) of the block times
  the column's entry (0, s, 0). So what point t writes back is block t of ONE function of the whole arrays, `scaleRows`
  of the data and the column; the 16 blocks tile the batch axis, every index lies in the block of point b / 8, and the
  array after the run is that function. The column being the keep flags (`Column.column_eq`), it is `dropped`.
-/
import proofs.«122713_j37254546325874_1_alg».proof.Proof.Gen.KernelIdeal.Value
import proofs.«122713_j37254546325874_1_alg».proof.Proof.KeepColumn

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Cert.FeatureMask

variable {F : FTy → Type} [FloatOps F]
variable (m : (ℓ : Loc nD τ sig) → Buf (Elt F) ℓ) (ρ : Dev nD → PrngReg)

/-- The body's loads and its store start at the origin of their buffers. -/
theorem origin : (![0, 0, 0] : Fin 3 → Nat) = fun _ => 0 := funext fun a => by fin_cases a <;> rfl

/-- The three index maps over the 16 points: the data window and the output window sit at block t of the batch
    axis and block 0 of the other two; the column's window sits at block 0 throughout. -/
theorem block_indices : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- What point t writes back is block t of `scaleRows` of the data array and the column, as the region finds them:
    the block's element y is the data block's element y times the column block's element (0, y 1, 0), and those are
    the arrays' elements at the block's place in the array and at the column index under it. -/
theorem flushed_eq (c : Dev nD) (t : Fin cfg0.N) :
    (dats m 0 c).flushed 2 t
      = ((cfg0.win 2).blk t).view.read (Elt F) (scaleRows (F := F) (V m c main_arg0) (V m c main_v3)) := by
  rw [Value.flushed2]
  unfold out0_2
  simp only [View.ld_unit_zero (S := S8x128x2048) origin, View.ld_unit_zero (S := S1x128x1) origin]
  funext y
  refine (Value.canon2_eq (iblk m c 0 t) (iblk m c 1 t) ((win0 2).xinj (grid0.coords t) y)).trans ?_
  obtain ⟨e00, e01, e02, e10, e11, e12, e20, e21, e22⟩ := block_indices t
  show FloatOps.mulf (V m c main_arg0 (((cfg0.win 0).blk t).view.emb (Value.ix2_0 ((win0 2).xinj (grid0.coords t) y))))
        (V m c main_v3 (((cfg0.win 1).blk t).view.emb (Value.ix2_1 ((win0 2).xinj (grid0.coords t) y))))
      = FloatOps.mulf (V m c main_arg0 (((cfg0.win 2).blk t).view.emb y))
        (V m c main_v3 (under (((cfg0.win 2).blk t).view.emb y)))
  have hdata : ((cfg0.win 0).blk t).view.emb (Value.ix2_0 ((win0 2).xinj (grid0.coords t) y))
      = ((cfg0.win 2).blk t).view.emb y := by
    funext a; apply Fin.ext
    match a with
    | ⟨0, _⟩ => show win0_0.index t (0 : Fin 3) * 8 + 1 * (y 0).val = win0_2.index t (0 : Fin 3) * 8 + 1 * (y 0).val; omega
    | ⟨1, _⟩ => show win0_0.index t (1 : Fin 3) * 128 + 1 * (y 1).val = win0_2.index t (1 : Fin 3) * 128 + 1 * (y 1).val; omega
    | ⟨2, _⟩ => show win0_0.index t (2 : Fin 3) * 2048 + 1 * (y 2).val = win0_2.index t (2 : Fin 3) * 2048 + 1 * (y 2).val; omega
  have hcol : ((cfg0.win 1).blk t).view.emb (Value.ix2_1 ((win0 2).xinj (grid0.coords t) y))
      = under (((cfg0.win 2).blk t).view.emb y) := by
    funext a; apply Fin.ext
    match a with
    | ⟨0, _⟩ => show win0_1.index t (0 : Fin 3) * 1 + 1 * 0 = 0; omega
    | ⟨1, _⟩ => show win0_1.index t (1 : Fin 3) * 128 + 1 * (y 1).val = win0_2.index t (1 : Fin 3) * 128 + 1 * (y 1).val; omega
    | ⟨2, _⟩ => show win0_1.index t (2 : Fin 3) * 1 + 1 * 0 = 0; omega
  rw [hdata, hcol]

/-- An array index is in point t's block iff each coordinate is in the block's range on its axis. -/
theorem mem_block (t : Fin cfg0.N) (i : S128x128x2048.Idx) :
    i ∈ ((cfg0.win 2).blk t).view.set ↔ ∀ a : Fin 3, win0_2.index t a * S8x128x2048.size a ≤ (i a).val
      ∧ (i a).val < win0_2.index t a * S8x128x2048.size a + S8x128x2048.size a := by
  show i ∈ ((View.whole main_v4).slice (win0_2.rect t)).set ↔ _
  rw [View.set_slice_whole, Rect.mem_set_unit]
  exact Iff.rfl

/-- The blocks tile the array: index (b, s, d) lies in the block of point b / 8, which writes back. -/
theorem covered (i : S128x128x2048.Idx) :
    ∃ t : Fin cfg0.N, (cfg0.win 2).flush t = true ∧ i ∈ ((cfg0.win 2).blk t).view.set := by
  have hi0 : (i 0).val < 128 := (i 0).isLt
  have hi1 : (i 1).val < 128 := (i 1).isLt
  have hi2 : (i 2).val < 2048 := (i 2).isLt
  have ht : (i 0).val / 8 < 16 := by omega
  obtain ⟨-, -, -, -, -, -, e20, e21, e22⟩ := block_indices ⟨(i 0).val / 8, ht⟩
  have e20' : win0_2.index ⟨(i 0).val / 8, ht⟩ (0 : Fin 3) = (i 0).val / 8 := e20
  refine ⟨⟨(i 0).val / 8, ht⟩, flush0_2 _, ?_⟩
  rw [mem_block]
  intro a
  match a with
  | ⟨0, _⟩ =>
    show win0_2.index ⟨(i 0).val / 8, ht⟩ (0 : Fin 3) * 8 ≤ (i 0).val
      ∧ (i 0).val < win0_2.index ⟨(i 0).val / 8, ht⟩ (0 : Fin 3) * 8 + 8
    omega
  | ⟨1, _⟩ =>
    show win0_2.index ⟨(i 0).val / 8, ht⟩ (1 : Fin 3) * 128 ≤ (i 1).val
      ∧ (i 1).val < win0_2.index ⟨(i 0).val / 8, ht⟩ (1 : Fin 3) * 128 + 128
    omega
  | ⟨2, _⟩ =>
    show win0_2.index ⟨(i 0).val / 8, ht⟩ (2 : Fin 3) * 2048 ≤ (i 2).val
      ∧ (i 2).val < win0_2.index ⟨(i 0).val / 8, ht⟩ (2 : Fin 3) * 2048 + 2048
    omega

/-- The array after the run: each element of the data times its feature's keep flag. -/
theorem final (c : Dev nD) :
    (dats m 0 c).arrAt 2 cfg0.N
      = dropped (F := F) (m ((c : Thread nD τ).loc main_arg0)) (m ((c : Thread nD τ).loc main_arg1)) := by
  rw [(dats m 0 c).arrAt_eq_of_cover 2 (scaleRows (F := F) (V m c main_arg0) (V m c main_v3))
    (fun t _ => flushed_eq m c t) covered]
  exact congrArg₂ (scaleRows (F := F)) (V_main_arg0 m c) (Column.column_eq m c)

/-- The kernel's run with its result named: every weakly fair execution ends with the result array at `dropped` of
    the arguments and the arguments unchanged. -/
theorem run : θ_run defs (onTc (τ := τ) (main (F := F))) ⟨m, fun _ => 0, ρ⟩ fun r => ∀ c : Dev nD,
      r.2.mem ((c : Thread nD τ).loc main_v4)
        = dropped (F := F) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.ReferenceValue.lean ====
/-
  The reference's result is the per-feature dropout `FeatureMask.dropped` of its two arguments.

  The reference builds the keep flags as a [128] vector, lays them out as a [1, 128, 1] column by one broadcast, spreads
  that column over the whole [128, 128, 2048] array by a second, and multiplies. Read at an array index (b, s, d) the
  two broadcasts pick the column entry (0, s, 0) and then the flag of feature s, so the product is the element times
  its feature's flag — the same operations on the same operands as the specification, index by index.
-/
import proofs.«122713_j37254546325874_1_alg».proof.Proof.Gen.ReferenceIdeal.Read
import proofs.«122713_j37254546325874_1_alg».proof.Proof.FeatureMask

noncomputable section

namespace Cert.ReferenceIdeal.RefValue

open Cert.ReferenceIdeal Cert.ReferenceIdeal.Read Idealize.ShloMosaic Cert.FeatureMask

variable {F : FTy → Type} [FloatOps F]

/-- The reference's last stage, as a function of the two arguments, is `dropped`: the stages are read one by one from
    the product back to the literal, and the composed index maps are the specification's `under` and `feature`. -/
theorem stage_eq_dropped (x0 : (⟨S128x128x2048, .f32⟩ : BufTy).Contents (Elt F)) (x1 : (⟨S128, .f32⟩ : BufTy).Contents (Elt F)) :
    val_main_v5 (F := F) x0 x1 = dropped (F := F) x0 x1 := by
  funext i
  rw [val_main_v5_apply, val_main_v4_apply, val_main_v3_apply, val_main_v2_apply, val_main_v1_apply,
    val_main_v0_apply, val_main_cst_apply]
  rfl

end Cert.ReferenceIdeal.RefValue

end
-- ==== Proof.lean ====
/-
  Per-feature dropout, kernel against reference, over the extended reals.

  Both programs take a [128, 128, 2048] array x and 128 draws r and return x with every element (b, s, d) multiplied
  by the keep flag of its feature s: 1 when r s is at least the binary word of 0.2, else 0. They share the literal,
  the comparison, the widening and the order of the product's operands, so no law of arithmetic is needed and the
  precondition is never opened: the two results are the same function `FeatureMask.dropped` of the arguments.

  The kernel's side: the flags are laid out as a [1, 128, 1] column before the region (`Column.column_eq`), each of
  the 16 grid points writes back its 8 batch rows of "data times the column at the element's feature", and the blocks
  tile the array (`ArrayValue.run`). The reference's side: its run, read one operation at a time
  (`RefValue.stage_eq_dropped`). The three frames are the generated ones (the reference's is its run with the result
  dropped), and the idealization rewrote nothing, so `preserves` holds trivially.
-/
import proofs.«122713_j37254546325874_1_alg».proof.Defs
import proofs.«122713_j37254546325874_1_alg».proof.Proof.Gen.Kernel
import proofs.«122713_j37254546325874_1_alg».proof.Proof.Gen.Kernel.Skeleton
import proofs.«122713_j37254546325874_1_alg».proof.Proof.Gen.Kernel.Launch
import proofs.«122713_j37254546325874_1_alg».proof.Proof.Gen.Kernel.Points
import proofs.«122713_j37254546325874_1_alg».proof.Proof.Gen.Kernel.Frame
import proofs.«122713_j37254546325874_1_alg».proof.Proof.Gen.KernelIdeal
import proofs.«122713_j37254546325874_1_alg».proof.Proof.Gen.KernelIdeal.Skeleton
import proofs.«122713_j37254546325874_1_alg».proof.Proof.Gen.KernelIdeal.Launch
import proofs.«122713_j37254546325874_1_alg».proof.Proof.Gen.KernelIdeal.Points
import proofs.«122713_j37254546325874_1_alg».proof.Proof.Gen.KernelIdeal.Frame
import proofs.«122713_j37254546325874_1_alg».proof.Proof.Gen.ReferenceIdeal
import proofs.«122713_j37254546325874_1_alg».proof.Proof.Gen.Pre_finite_inputs
import proofs.«122713_j37254546325874_1_alg».proof.Proof.Gen.KernelIdeal.Value
import proofs.«122713_j37254546325874_1_alg».proof.Proof.Gen.ReferenceIdeal.Run
import proofs.«122713_j37254546325874_1_alg».proof.Proof.Gen.ReferenceIdeal.Read
import proofs.«122713_j37254546325874_1_alg».proof.Proof.KernelValue
import proofs.«122713_j37254546325874_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no region: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with `dropped` of those arguments: the kernel's
    array by its blocks, the reference's by its stages. -/
theorem algebraic : Cert.algebraic_KernelIdeal_ReferenceIdeal := by
  intro m ρ m' ρ' _ hagree
  refine ⟨fun c => Cert.FeatureMask.dropped (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.stage_eq_dropped, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
